-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S256x128x32 : Shape := ⟨3, ![256, 128, 32]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S256x128x32 : S_.BroadcastsInDim S256x128x32 (![] : Fin 0 → Fin S256x128x32.rank)
  reducesTo_S256x128x32_S_d0_1_2 : S256x128x32.ReducesTo [0, 1, 2] S_

variable [Facts]

def fn {F : FTy → Type} [FloatOps F] (main_arg0 : FVec F S2048x128 .f32) (main_arg1 : FVec F S256x128x32 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S256x128x32 .f32 := Host.absf main_arg1
  let main_cst_0 : FVec F S_ .f32 := constant S_ .f32 0x7F800000#32
  let main_v5 : FVec F S256x128x32 .f32 := broadcastInDim S256x128x32 ![] bcast_S_S256x128x32 main_cst_0
  let main_v6 : IVec S256x128x32 1 := cmpf .olt main_v4 main_v5
  let main_c_1 : IVec S_ 1 := constantI S_ 1 1#1
  let main_v7 : IVec S_ 1 := (fun x v => Host.reduce IntOp.andi x v reducesTo_S256x128x32_S_d0_1_2 h_S_) main_v6 main_c_1
  let main_v8 : IVec S_ 1 := andi main_v3 main_v7
  main_v8
-- ==== Kernel.lean ====
abbrev S2048x128 : Shape := ⟨2, ![2048, 128]⟩
abbrev S256x128x32 : Shape := ⟨3, ![256, 128, 32]⟩
abbrev S32x128x256 : Shape := ⟨3, ![32, 128, 256]⟩
abbrev S4096x256 : Shape := ⟨2, ![4096, 256]⟩
abbrev S2048x256 : Shape := ⟨2, ![2048, 256]⟩
abbrev S256x128 : Shape := ⟨2, ![256, 128]⟩
abbrev S256x256 : Shape := ⟨2, ![256, 256]⟩
abbrev S256x1x128 : Shape := ⟨3, ![256, 1, 128]⟩
abbrev S256x32x128 : Shape := ⟨3, ![256, 32, 128]⟩
abbrev S256x4096 : Shape := ⟨2, ![256, 4096]⟩

abbrev nBuf : Space → Nat
  | .hbm => 6
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S256x128x32, .f32⟩
  | .hbm, ⟨2, _⟩ => ⟨S32x128x256, .f32⟩
  | .hbm, ⟨3, _⟩ => ⟨S4096x256, .f32⟩
  | .hbm, ⟨4, _⟩ => ⟨S4096x256, .bf16⟩
  | .hbm, ⟨5, _⟩ => ⟨S2048x256, .f32⟩
  | .local _ .vmem, ⟨0, _⟩ => ⟨S256x128, .f32⟩
  | .local _ .vmem, ⟨1, _⟩ => ⟨S256x128, .f32⟩
  | .local _ .vmem, ⟨2, _⟩ => ⟨S4096x256, .bf16⟩
  | .local _ .vmem, ⟨3, _⟩ => ⟨S256x256, .f32⟩
  | .local _ .vmem, ⟨4, _⟩ => ⟨S256x256, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x128x32_S32x128x256_2_1_0 : S256x128x32.Transposes [2, 1, 0] S32x128x256
  shapeCasts_S32x128x256_S4096x256 : S32x128x256.ShapeCasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x1x128 : S256x128.ShapeCasts S256x1x128
  iota_S256x32x128_d1_w32 : S256x32x128.Iotas .tc 32 [1]
  broadcasts_S256x1x128_S256x32x128 : S256x1x128.Broadcasts S256x32x128
  shapeCasts_S256x1x128_S256x1x128 : S256x1x128.ShapeCasts S256x1x128
  shapeCasts_S256x32x128_S256x4096 : S256x32x128.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x256.size a
  hwx0_2 : ∀ i : grid0.Coords, EltTy.bits .f32 = 32 ∨ (Rect.block (s := S2048x256) S256x256.size (cc0_transform_2 i) (hinb0_2 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x128 : Shape := ⟨2, ![2048, 128]⟩
abbrev S256x128x32 : Shape := ⟨3, ![256, 128, 32]⟩
abbrev S2048x1x128 : Shape := ⟨3, ![2048, 1, 128]⟩
abbrev S_ : Shape := ⟨0, ![]⟩
abbrev S2048x256x128 : Shape := ⟨3, ![2048, 256, 128]⟩
abbrev S256 : Shape := ⟨1, ![256]⟩
abbrev S1x256x1 : Shape := ⟨3, ![1, 256, 1]⟩
abbrev S128 : Shape := ⟨1, ![128]⟩
abbrev S1x1x128 : Shape := ⟨3, ![1, 1, 128]⟩
abbrev S2048x256x128x1 : Shape := ⟨4, ![2048, 256, 128, 1]⟩
abbrev S2048x256x128x3 : Shape := ⟨4, ![2048, 256, 128, 3]⟩
abbrev S2048x256 : Shape := ⟨2, ![2048, 256]⟩

abbrev nBuf : Space → Nat
  | .hbm => 96
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S256x128x32, .f32⟩
  | .hbm, ⟨2, _⟩ => ⟨S2048x1x128, .f32⟩
  | .hbm, ⟨3, _⟩ => ⟨S_, .f32⟩
  | .hbm, ⟨4, _⟩ => ⟨S2048x1x128, .f32⟩
  | .hbm, ⟨5, _⟩ => ⟨S2048x1x128, .f32⟩
  | .hbm, ⟨6, _⟩ => ⟨S_, .f32⟩
  | .hbm, ⟨7, _⟩ => ⟨S2048x1x128, .f32⟩
  | .hbm, ⟨8, _⟩ => ⟨S2048x1x128, .f32⟩
  | .hbm, ⟨9, _⟩ => ⟨S_, .f32⟩
  | .hbm, ⟨10, _⟩ => ⟨S2048x1x128, .f32⟩
  | .hbm, ⟨11, _⟩ => ⟨S2048x1x128, .f32⟩
  | .hbm, ⟨12, _⟩ => ⟨S2048x256x128, .f32⟩
  | .hbm, ⟨13, _⟩ => ⟨S2048x256x128, .f32⟩
  | .hbm, ⟨14, _⟩ => ⟨S2048x256x128, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048x256x128, .i32⟩
  | .hbm, ⟨19, _⟩ => ⟨S2048x256x128, .i32⟩
  | .hbm, ⟨20, _⟩ => ⟨S_, .i32⟩
  | .hbm, ⟨21, _⟩ => ⟨S2048x256x128, .i32⟩
  | .hbm, ⟨22, _⟩ => ⟨S2048x256x128, .i32⟩
  | .hbm, ⟨23, _⟩ => ⟨S_, .i32⟩
  | .hbm, ⟨24, _⟩ => ⟨S2048x256x128, .i32⟩
  | .hbm, ⟨25, _⟩ => ⟨S2048x256x128, .i32⟩
  | .hbm, ⟨26, _⟩ => ⟨S256, .i32⟩
  | .hbm, ⟨27, _⟩ => ⟨S1x256x1, .i32⟩
  | .hbm, ⟨28, _⟩ => ⟨S128, .i32⟩
  | .hbm, ⟨29, _⟩ => ⟨S1x1x128, .i32⟩
  | .hbm, ⟨30, _⟩ => ⟨S_, .i32⟩
  | .hbm, ⟨31, _⟩ => ⟨S1x256x1, .i32⟩
  | .hbm, ⟨32, _⟩ => ⟨S1x256x1, .i1⟩
  | .hbm, ⟨33, _⟩ => ⟨S_, .i32⟩
  | .hbm, ⟨34, _⟩ => ⟨S1x256x1, .i32⟩
  | .hbm, ⟨35, _⟩ => ⟨S1x256x1, .i32⟩
  | .hbm, ⟨36, _⟩ => ⟨S1x256x1, .i32⟩
  | .hbm, ⟨37, _⟩ => ⟨S_, .i32⟩
  | .hbm, ⟨38, _⟩ => ⟨S1x1x128, .i32⟩
  | .hbm, ⟨39, _⟩ => ⟨S1x1x128, .i1⟩
  | .hbm, ⟨40, _⟩ => ⟨S_, .i32⟩
  | .hbm, ⟨41, _⟩ => ⟨S1x1x128, .i32⟩
  | .hbm, ⟨42, _⟩ => ⟨S1x1x128, .i32⟩
  | .hbm, ⟨43, _⟩ => ⟨S1x1x128, .i32⟩
  | .hbm, ⟨44, _⟩ => ⟨S_, .i32⟩
  | .hbm, ⟨45, _⟩ => ⟨S2048x256x128, .i32⟩
  | .hbm, ⟨46, _⟩ => ⟨S2048x256x128, .i1⟩
  | .hbm, ⟨47, _⟩ => ⟨S_, .i32⟩
  | .hbm, ⟨48, _⟩ => ⟨S2048x256x128, .i32⟩
  | .hbm, ⟨49, _⟩ => ⟨S2048x256x128, .i32⟩
  | .hbm, ⟨50, _⟩ => ⟨S2048x256x128, .i32⟩
  | .hbm, ⟨51, _⟩ => ⟨S2048x256x128, .i32⟩
  | .hbm, ⟨52, _⟩ => ⟨S2048x256x128, .i32⟩
  | .hbm, ⟨53, _⟩ => ⟨S2048x256x128x1, .i32⟩
  | .hbm, ⟨54, _⟩ => ⟨S2048x256x128x1, .i32⟩
  | .hbm, ⟨55, _⟩ => ⟨S2048x256x128x1, .i32⟩
  | .hbm, ⟨56, _⟩ => ⟨S2048x256x128x3, .i32⟩
  | .hbm, ⟨57, _⟩ => ⟨S2048x256x128, .f32⟩
  | .hbm, ⟨58, _⟩ => ⟨S_, .i32⟩
  | .hbm, ⟨59, _⟩ => ⟨S1x256x1, .i32⟩
  | .hbm, ⟨60, _⟩ => ⟨S1x256x1, .i1⟩
  | .hbm, ⟨61, _⟩ => ⟨S_, .i32⟩
  | .hbm, ⟨62, _⟩ => ⟨S1x256x1, .i32⟩
  | .hbm, ⟨63, _⟩ => ⟨S1x256x1, .i32⟩
  | .hbm, ⟨64, _⟩ => ⟨S1x256x1, .i32⟩
  | .hbm, ⟨65, _⟩ => ⟨S_, .i32⟩
  | .hbm, ⟨66, _⟩ => ⟨S1x1x128, .i32⟩
  | .hbm, ⟨67, _⟩ => ⟨S1x1x128, .i1⟩
  | .hbm, ⟨68, _⟩ => ⟨S_, .i32⟩
  | .hbm, ⟨69, _⟩ => ⟨S1x1x128, .i32⟩
  | .hbm, ⟨70, _⟩ => ⟨S1x1x128, .i32⟩
  | .hbm, ⟨71, _⟩ => ⟨S1x1x128, .i32⟩
  | .hbm, ⟨72, _⟩ => ⟨S_, .i32⟩
  | .hbm, ⟨73, _⟩ => ⟨S2048x256x128, .i32⟩
  | .hbm, ⟨74, _⟩ => ⟨S2048x256x128, .i1⟩
  | .hbm, ⟨75, _⟩ => ⟨S_, .i32⟩
  | .hbm, ⟨76, _⟩ => ⟨S2048x256x128, .i32⟩
  | .hbm, ⟨77, _⟩ => ⟨S2048x256x128, .i32⟩
  | .hbm, ⟨78, _⟩ => ⟨S2048x256x128, .i32⟩
  | .hbm, ⟨79, _⟩ => ⟨S2048x256x128, .i32⟩
  | .hbm, ⟨80, _⟩ => ⟨S2048x256x128, .i32⟩
  | .hbm, ⟨81, _⟩ => ⟨S2048x256x128x1, .i32⟩
  | .hbm, ⟨82, _⟩ => ⟨S2048x256x128x1, .i32⟩
  | .hbm, ⟨83, _⟩ => ⟨S2048x256x128x1, .i32⟩
  | .hbm, ⟨84, _⟩ => ⟨S2048x256x128x3, .i32⟩
  | .hbm, ⟨85, _⟩ => ⟨S2048x256x128, .f32⟩
  | .hbm, ⟨86, _⟩ => ⟨S2048x256x128, .f32⟩
  | .hbm, ⟨87, _⟩ => ⟨S2048x256x128, .f32⟩
  | .hbm, ⟨88, _⟩ => ⟨S_, .f32⟩
  | .hbm, ⟨89, _⟩ => ⟨S2048x256x128, .f32⟩
  | .hbm, ⟨90, _⟩ => ⟨S2048x256x128, .f32⟩
  | .hbm, ⟨91, _⟩ => ⟨S2048x256x128, .f32⟩
  | .hbm, ⟨92, _⟩ => ⟨S2048x256x128, .f32⟩
  | .hbm, ⟨93, _⟩ => ⟨S2048x256x128, .f32⟩
  | .hbm, ⟨94, _⟩ => ⟨S_, .f32⟩
  | .hbm, ⟨95, _⟩ => ⟨S2048x256, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S_S2048x1x128 : S_.BroadcastsInDim S2048x1x128 (![] : Fin 0 → Fin S2048x1x128.rank)
  bcast_S2048x1x128_S2048x256x128_0_1_2 : S2048x1x128.BroadcastsInDim S2048x256x128 (![0, 1, 2] : Fin 3 → Fin S2048x256x128.rank)
  bcast_S_S2048x256x128 : S_.BroadcastsInDim S2048x256x128 (![] : Fin 0 → Fin S2048x256x128.rank)
  bcast_S256_S1x256x1_1 : S256.BroadcastsInDim S1x256x1 (![1] : Fin 1 → Fin S1x256x1.rank)
  bcast_S128_S1x1x128_2 : S128.BroadcastsInDim S1x1x128 (![2] : Fin 1 → Fin S1x1x128.rank)
  bcast_S_S1x256x1 : S_.BroadcastsInDim S1x256x1 (![] : Fin 0 → Fin S1x256x1.rank)
  bcast_S_S1x1x128 : S_.BroadcastsInDim S1x1x128 (![] : Fin 0 → Fin S1x1x128.rank)
  bcast_S1x256x1_S2048x256x128_0_1_2 : S1x256x1.BroadcastsInDim S2048x256x128 (![0, 1, 2] : Fin 3 → Fin S2048x256x128.rank)
  bcast_S1x1x128_S2048x256x128_0_1_2 : S1x1x128.BroadcastsInDim S2048x256x128 (![0, 1, 2] : Fin 3 → Fin S2048x256x128.rank)
  bcast_S2048x256x128_S2048x256x128x1_0_1_2 : S2048x256x128.BroadcastsInDim S2048x256x128x1 (![0, 1, 2] : Fin 3 → Fin S2048x256x128x1.rank)
  concatenates_S2048x256x128x1_S2048x256x128x1_S2048x256x128x1_S2048x256x128x3_d3 : Shape.Concatenates [S2048x256x128x1, S2048x256x128x1, S2048x256x128x1] S2048x256x128x3 3
  reducesTo_S2048x256x128_S2048x256_d2 : S2048x256x128.ReducesTo [2] S2048x256
  h_S_ : 0 < S_.numel
  gather_S256x128x32_S2048x256x128x3_S2048x256x128_n_012_n_n_012_3_111_wf : GatherDims.WF S256x128x32 S2048x256x128x3 S2048x256x128 [] [0, 1, 2] [] [0, 1, 2] [] 3 ![1, 1, 1]

variable [Facts₀]

def gather_S256x128x32_S2048x256x128x3_S2048x256x128_n_012_n_n_012_3_111 : GatherDims S256x128x32 S2048x256x128x3 S2048x256x128 where
  offsetDims := []
  collapsedSliceDims := [0, 1, 2]
  operandBatchingDims := []
  startIndicesBatchingDims := []
  startIndexMap := [0, 1, 2]
  indexVectorDim := 3
  sliceSizes := ![1, 1, 1]
  wf := gather_S256x128x32_S2048x256x128x3_S2048x256x128_n_012_n_n_012_3_111_wf

class Facts : Prop extends Facts₀ where

variable [Facts]
-- ==== Proof.Knot.lean ====
/-
  The grid position of a sample and the index of the knot on its left.

  A sample `x` sits at position `(x + 1) · 31/2` on a grid of 32 knots spaced over `[-1, 1]`. One program spells the
  position `(x - (-1)) · 15.5`, the other `((x - (-1)) / 2) · 31`; on the extended reals these agree for every `x`,
  because dividing by the real `2` is multiplying by `1/2` and multiplication is associative.

  The knot on the left of position `p` is `⌊p⌋` clamped into `[0, 30]`. One program clamps the real number `⌊p⌋` and then
  converts it to a 32-bit integer; the other converts first (the conversion saturates at the ends of the 32-bit range)
  and clamps the integer. Both give the word of the integer `min 30 (max 0 ⌊p⌋)`: saturating at `±2³¹` first does not
  change a clamp into `[0, 30]`.
-/
import Idealize.ShloMosaic.PureOps.Ideal
import Idealize.ShloMosaic.PureOps.Ideal.Laws
import Idealize.ShloMosaic.Lib.WordArith

noncomputable section

namespace Cert.Spline

open Idealize.ShloMosaic Idealize.ShloMosaic.WordArith

/-! ## The literals -/

theorem ofBits_two : Ideal.ofBits .f32 0x40000000#32 = ((2 : ℝ) : EReal) := by
  simp [Ideal.ofBits, Ideal.ieee, -EReal.coe_mul]; norm_num

theorem ofBits_thirtyOne : Ideal.ofBits .f32 0x41F80000#32 = ((31 : ℝ) : EReal) := by
  simp [Ideal.ofBits, Ideal.ieee, -EReal.coe_mul]; norm_num

theorem ofBits_halfThirtyOne : Ideal.ofBits .f32 0x41780000#32 = (((31 : ℝ) / 2 : ℝ) : EReal) := by
  simp [Ideal.ofBits, Ideal.ieee, -EReal.coe_mul]; norm_num

theorem ofBits_thirty : Ideal.ofBits .f32 0x41F00000#32 = ((30 : ℝ) : EReal) := by
  simp [Ideal.ofBits, Ideal.ieee, -EReal.coe_mul]; norm_num

/-! ## The position -/

/-- The grid position of the sample `x`: `(x - (-1)) · 31/2`. -/
def pos (x : EReal) : EReal :=
  (x - Ideal.ofBits .f32 0xBF800000#32) * Ideal.ofBits .f32 0x41780000#32

/-- Halving and then scaling by `31` is scaling by `31/2`, for every extended real. -/
theorem pos_of_halve (x : EReal) :
    Ideal.div (x - Ideal.ofBits .f32 0xBF800000#32) (Ideal.ofBits .f32 0x40000000#32) * Ideal.ofBits .f32 0x41F80000#32
      = pos x := by
  unfold pos
  rw [ofBits_two, ofBits_thirtyOne, ofBits_halfThirtyOne, Ideal.div_coe (by norm_num : (2 : ℝ) ≠ 0), mul_assoc,
    ← EReal.coe_mul]
  congr 2
  norm_num

/-! ## The knot index -/

/-- A 32-bit word made from an integer in the signed range reads back as that integer. -/
theorem toInt_ofInt_of_range (z : ℤ) (h1 : -2 ^ 31 ≤ z) (h2 : z < 2 ^ 31) : (BitVec.ofInt 32 z).toInt = z := by
  rw [BitVec.toInt_ofInt, Int.bmod_def]
  norm_num
  omega

/-- The word of the knot on the left of position `p`: `⌊p⌋` clamped into `[0, 30]` as a real, then converted. -/
def knot (p : EReal) : BitVec 32 :=
  Ideal.fptosi 32 (min (Ideal.ofBits .f32 0x41F00000#32) (max (Ideal.ofBits .f32 0x00000000#32) (Ideal.liftRound Int.floor p)))

/-- The integer the knot word holds. -/
def knotInt : EReal → ℤ
  | ⊥ => 0
  | ⊤ => 30
  | (r : ℝ) => min 30 (max 0 ⌊r⌋)

theorem knotInt_bot : knotInt ⊥ = 0 := rfl
theorem knotInt_top : knotInt ⊤ = 30 := rfl
theorem knotInt_coe (r : ℝ) : knotInt (r : EReal) = min 30 (max 0 ⌊r⌋) := rfl

theorem knotInt_range (p : EReal) : 0 ≤ knotInt p ∧ knotInt p ≤ 30 := by
  induction p using EReal.rec with
  | bot => rw [knotInt_bot]; omega
  | top => rw [knotInt_top]; omega
  | coe r => rw [knotInt_coe]; omega

/-- Clamping the real and converting gives the word of the clamped integer. -/
theorem knot_eq (p : EReal) : knot p = BitVec.ofInt 32 (knotInt p) := by
  unfold knot
  rw [ofBits_thirty, Ideal.ofBits_zero_f32]
  induction p using EReal.rec with
  | bot =>
    rw [Ideal.liftRound_bot, max_eq_left bot_le, min_eq_right (by exact_mod_cast (by norm_num : (0 : ℝ) ≤ 30))]
    show Ideal.fptosi 32 ((0 : ℝ) : EReal) = _
    rw [Ideal.fptosi, Ideal.toIntClamped_coe, knotInt_bot]
    simp
  | top =>
    rw [Ideal.liftRound_top, max_eq_right le_top, min_eq_left le_top]
    rw [Ideal.fptosi, Ideal.toIntClamped_coe, knotInt_top]
    simp
  | coe r =>
    rw [Ideal.liftRound_coe, knotInt_coe]
    have e : min ((30 : ℝ) : EReal) (max ((0 : ℝ) : EReal) (((⌊r⌋ : ℤ) : ℝ) : EReal))
        = (((min 30 (max 0 ⌊r⌋) : ℤ) : ℝ) : EReal) := by
      rw [show ((0 : ℝ) : EReal) = (((0 : ℤ) : ℝ) : EReal) by norm_num,
        show ((30 : ℝ) : EReal) = (((30 : ℤ) : ℝ) : EReal) by norm_num]
      rw [← (EReal.coe_strictMono.monotone).map_max, ← (EReal.coe_strictMono.monotone).map_min]
      congr 1
      rw [← Int.cast_max, ← Int.cast_min]
    rw [show (0 : EReal) = ((0 : ℝ) : EReal) from rfl, e, Ideal.fptosi, Ideal.toIntClamped_coe]
    congr 1
    show max _ (min _ (if (0 : ℝ) ≤ ((min 30 (max 0 ⌊r⌋) : ℤ) : ℝ) then ⌊((min 30 (max 0 ⌊r⌋) : ℤ) : ℝ)⌋ else ⌈((min 30 (max 0 ⌊r⌋) : ℤ) : ℝ)⌉))
      = min 30 (max 0 ⌊r⌋)
    rw [Int.floor_intCast, Int.ceil_intCast, ite_self]
    norm_num

theorem knot_toInt (p : EReal) : (knot p).toInt = knotInt p := by
  rw [knot_eq]
  have := knotInt_range p
  exact toInt_ofInt_of_range _ (by omega) (by omega)

/-- Converting `⌊p⌋` first (saturating at the ends of the signed range) and clamping the integer gives the same word. -/
theorem knot_of_clip (p : EReal) :
    IntOp.minsi 30#32 (IntOp.maxsi 0#32 (Ideal.fptosi 32 (Ideal.liftRound Int.floor p))) = knot p := by
  apply BitVec.eq_of_toInt_eq
  rw [knot_toInt]
  -- the saturated conversion, as an integer
  have hs : ∃ s : ℤ, (Ideal.fptosi 32 (Ideal.liftRound Int.floor p)).toInt = s ∧ min 30 (max 0 s) = knotInt p := by
    induction p using EReal.rec with
    | bot =>
      refine ⟨-2 ^ 31, ?_, by rw [knotInt_bot]; omega⟩
      rw [Ideal.liftRound_bot, Ideal.fptosi, Ideal.toIntClamped_bot]
      exact toInt_ofInt_of_range _ (by norm_num) (by norm_num)
    | top =>
      refine ⟨2 ^ 31 - 1, ?_, by rw [knotInt_top]; omega⟩
      rw [Ideal.liftRound_top, Ideal.fptosi, Ideal.toIntClamped_top]
      exact toInt_ofInt_of_range _ (by norm_num) (by norm_num)
    | coe r =>
      refine ⟨max (-2 ^ 31) (min (2 ^ 31 - 1) ⌊r⌋), ?_, by rw [knotInt_coe]; omega⟩
      rw [Ideal.liftRound_coe, Ideal.fptosi, Ideal.toIntClamped_coe, Int.floor_intCast, Int.ceil_intCast, ite_self]
      have e : max (-((2 ^ (32 - 1) : ℕ) : ℤ)) (min (((2 ^ (32 - 1) : ℕ) : ℤ) - 1) ⌊r⌋) = max (-2 ^ 31) (min (2 ^ 31 - 1) ⌊r⌋) := by
        norm_num
      rw [e]
      exact toInt_ofInt_of_range _ (by omega) (by omega)
  obtain ⟨s, hs1, hs2⟩ := hs
  have h1 : (IntOp.maxsi 0#32 (Ideal.fptosi 32 (Ideal.liftRound Int.floor p))).toInt = max 0 s := by
    rw [toInt_maxsi_zero, hs1]
  rw [← hs2]
  unfold IntOp.minsi
  by_cases hlt : (30#32 : BitVec 32).slt (IntOp.maxsi 0#32 (Ideal.fptosi 32 (Ideal.liftRound Int.floor p))) = true
  · rw [if_pos hlt]
    have := BitVec.slt_iff_toInt_lt.mp hlt
    rw [h1] at this
    have e30 : (30#32 : BitVec 32).toInt = 30 := by decide
    rw [e30] at this ⊢
    omega
  · rw [if_neg hlt, h1]
    have : ¬ (30#32 : BitVec 32).toInt < max 0 s := fun h => hlt (BitVec.slt_iff_toInt_lt.mpr (by rw [h1]; exact h))
    have e30 : (30#32 : BitVec 32).toInt = 30 := by decide
    rw [e30] at this
    omega

theorem knot_range (p : EReal) : 0 ≤ (knot p).toInt ∧ (knot p).toInt ≤ 30 := by
  rw [knot_toInt]; exact knotInt_range p

end Cert.Spline

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  The spline layer as one function of its two arguments.

  For sample `b` and output `o`, the result is the sum over the 128 inputs `i` of the linear interpolation, at the position
  of `x[b, i]` on the knot grid, between the two neighbouring coefficients of row `(o, i)`:
  `c[o, i, n] · (1 - t) + c[o, i, n + 1] · t`, with `n` the knot on the left (clamped into `[0, 30]`) and `t` the
  position's offset from knot `n`.
-/
import Idealize.ShloMosaic.Lib.ValueIdx
import proofs.«139605_j15350213116057_1_alg».proof.Proof.Knot
import proofs.«139605_j15350213116057_1_alg».proof.Proof.LibIndex

noncomputable section

open scoped BigOperators

namespace Cert.Spline

open Idealize.ShloMosaic Idealize.ShloMosaic.ValueIdx Cert.Gcn

/-- The literal `1.0`, as both programs spell it. -/
abbrev one : EReal := Ideal.ofBits .f32 0x3F800000#32

/-- The offset of the sample's position from the knot on its left. -/
def frac (x : EReal) : EReal := pos x - (((knot (pos x)).toInt : ℝ) : EReal)

/-- The word of the knot on the right. -/
abbrev knotR (x : EReal) : BitVec 32 := IntOp.addi (knot (pos x)) 1#32

/-- The layer's result at `(b, o)`. -/
def spline (x : (⟨2, ![2048, 128]⟩ : Shape).Idx → EReal) (c : (⟨3, ![256, 128, 32]⟩ : Shape).Idx → EReal) :
    (⟨2, ![2048, 256]⟩ : Shape).Idx → EReal :=
  fun j => ∑ i : Fin 128,
    (c (ix3 (j 1) i (crow 32 (by decide) (knot (pos (x (ix2 (j 0) i)))))) * (one - frac (x (ix2 (j 0) i)))
      + c (ix3 (j 1) i (crow 32 (by decide) (knotR (x (ix2 (j 0) i))))) * frac (x (ix2 (j 0) i)))

end Cert.Spline

end
-- ==== Proof.Taps.lean ====
/-
  Two facts about finite sums on the extended reals.

  A weighting of 32 knots that is `u` at knot `a`, `v` at knot `a + 1` and zero elsewhere picks two taps out of a row of 32
  coefficients: `∑ k, weight k * w k = w a * u + w (a + 1) * v`. Zero times anything is zero on the extended reals, so no
  coefficient needs to be finite.

  A sum over 4096 = 32 · 128 entries laid out knot-major (entry `128 k + i` belongs to knot `k` and input `i`) is the sum
  over the inputs of the sums over the knots.
-/
import Idealize.ShloMosaic.PureOps.Ideal
import Idealize.ShloMosaic.Lib.WordArith
import proofs.«139605_j15350213116057_1_alg».proof.Proof.LibIndex

noncomputable section

open scoped BigOperators

namespace Cert.Spline

open Idealize.ShloMosaic Idealize.ShloMosaic.WordArith Cert.Gcn

/-- A weighting supported on two distinct positions picks two taps. -/
theorem sum_two_taps {N : ℕ} (i j : Fin N) (hij : i ≠ j) (u v : EReal) (w : Fin N → EReal) :
    ∑ k : Fin N, (if k = i then u else if k = j then v else 0) * w k = w i * u + w j * v := by
  have h : ∀ k : Fin N, (if k = i then u else if k = j then v else 0) * w k
      = (if k = i then u * w k else 0) + (if k = j then v * w k else 0) := by
    intro k
    by_cases h1 : k = i
    · subst h1; rw [if_pos rfl, if_pos rfl, if_neg hij, add_zero]
    · rw [if_neg h1, if_neg h1, zero_add]
      by_cases h2 : k = j
      · rw [if_pos h2, if_pos h2]
      · rw [if_neg h2, if_neg h2, zero_mul]
  rw [Finset.sum_congr rfl fun k _ => h k, Finset.sum_add_distrib, Finset.sum_ite_eq' Finset.univ i,
    Finset.sum_ite_eq' Finset.univ j, if_pos (Finset.mem_univ _), if_pos (Finset.mem_univ _), mul_comm u, mul_comm v]

/-- The same with the positions given by a 32-bit word `a` in `[0, 30]` and its successor, the weighting spelt with word
    comparisons against the knot's number, and the taps read at the words clamped into the row. -/
theorem sum_knot_taps (a : BitVec 32) (h0 : 0 ≤ a.toInt) (h1 : a.toInt ≤ 30) (u v : EReal) (w : Fin 32 → EReal) :
    ∑ k : Fin 32, Scalar.select (IntOp.cmpi .eq (BitVec.ofNat 32 k.val) a) u
        (Scalar.select (IntOp.cmpi .eq (BitVec.ofNat 32 k.val) (IntOp.addi a 1#32)) v 0) * w k
      = w (crow 32 (by decide) a) * u + w (crow 32 (by decide) (IntOp.addi a 1#32)) * v := by
  have ea := BitVec.toInt_eq_toNat_cond a
  have hlt := a.isLt
  have hn : a.toNat ≤ 30 := by omega
  have hai : a.toInt = a.toNat := by omega
  -- the successor word
  have hs : (IntOp.addi a 1#32).toInt = a.toInt + 1 := by
    have e1 : (1#32 : BitVec 32).toInt = 1 := by decide
    have := toInt_add_of_bounds a 1#32 (by rw [e1]; omega) (by rw [e1]; omega)
    rw [e1] at this
    exact this
  have hsn : (IntOp.addi a 1#32).toNat = a.toNat + 1 := by
    have := BitVec.toInt_eq_toNat_cond (IntOp.addi a 1#32)
    have := (IntOp.addi a 1#32).isLt
    omega
  -- the clamped words are the words
  have hc0 : crow 32 (by decide) a = ⟨a.toNat, by omega⟩ := Fin.ext (by show min a.toInt.toNat (32 - 1) = a.toNat; omega)
  have hc1 : crow 32 (by decide) (IntOp.addi a 1#32) = ⟨a.toNat + 1, by omega⟩ :=
    Fin.ext (by show min (IntOp.addi a 1#32).toInt.toNat (32 - 1) = a.toNat + 1; omega)
  rw [hc0, hc1, ← sum_two_taps (⟨a.toNat, by omega⟩ : Fin 32) ⟨a.toNat + 1, by omega⟩ (by intro h; have := congrArg Fin.val h; simp at this) u v w]
  refine Finset.sum_congr rfl fun k _ => ?_
  congr 1
  -- a word comparison against the knot's number is the comparison of the numbers
  have hk := k.isLt
  have key : ∀ b : BitVec 32, IntOp.cmpi .eq (BitVec.ofNat 32 k.val) b = BitVec.ofBool (decide (k.val = b.toNat)) := by
    intro b
    show BitVec.ofBool (BitVec.ofNat 32 k.val == b) = _
    congr 1
    rw [Bool.eq_iff_iff, beq_iff_eq, decide_eq_true_iff]
    constructor
    · intro h; rw [← h, toNat_ofNat_of_lt _ (by omega)]
    · intro h; apply BitVec.eq_of_toNat_eq; rw [toNat_ofNat_of_lt _ (by omega), h]
  rw [key a, key (IntOp.addi a 1#32), hsn]
  by_cases c1 : k.val = a.toNat
  · rw [decide_eq_true c1, if_pos (Fin.ext c1)]; rfl
  · rw [decide_eq_false c1, if_neg (fun h => c1 (congrArg Fin.val h))]
    show Scalar.select (BitVec.ofBool (decide (k.val = a.toNat + 1))) v 0 = _
    by_cases c2 : k.val = a.toNat + 1
    · rw [decide_eq_true c2, if_pos (Fin.ext c2)]; rfl
    · rw [decide_eq_false c2, if_neg (fun h => c2 (congrArg Fin.val h))]; rfl

/-- A sum over 4096 entries laid out knot-major is the sum over the 128 inputs of the sums over the 32 knots. -/
theorem sum_knot_major (f : Fin 4096 → EReal) (g : Fin 32 → Fin 128 → EReal)
    (h : ∀ (k : Fin 32) (i : Fin 128), f ⟨128 * k.val + i.val, by omega⟩ = g k i) :
    ∑ j : Fin 4096, f j = ∑ i : Fin 128, ∑ k : Fin 32, g k i := by
  rw [← Equiv.sum_comp (finProdFinEquiv (m := 32) (n := 128)) f, Fintype.sum_prod_type, Finset.sum_comm]
  refine Finset.sum_congr rfl fun i _ => Finset.sum_congr rfl fun k _ => ?_
  rw [← h k i]
  congr 1
  apply Fin.ext
  show i.val + 128 * k.val = 128 * k.val + i.val
  omega

end Cert.Spline

end
-- ==== Proof.Layout.lean ====
/-
  The four re-layings the kernel's body applies, each read at an index, for any element type: a `[256, 128]` array
  given a middle unit axis; a `[256, 1, 128]` array copied along the middle axis to `[256, 32, 128]`; and a
  `[256, 32, 128]` array with its last two axes merged, so that entry `(p, 128 k + i)` of the merged array is entry
  `(p, k, i)`.
-/
import Idealize.ShloMosaic.Lib.Pipeline.Value
import Idealize.ShloMosaic.Lib.ValueIdx

namespace Cert.Spline

open Idealize.ShloMosaic Idealize.ShloMosaic.ValueIdx

variable {α : Type}

/-- Entry `128 k + i` of a merged axis of 4096 = 32 · 128 entries. -/
abbrev flat (k : Fin 32) (i : Fin 128) : Fin 4096 := ⟨128 * k.val + i.val, by omega⟩

/-- A middle unit axis added: `(p, 0, i)` reads `(p, i)`. -/
theorem addMid_apply (v : (⟨2, ![256, 128]⟩ : Shape).Idx → α)
    (h : (⟨2, ![256, 128]⟩ : Shape).ShapeCasts ⟨3, ![256, 1, 128]⟩) (p : Fin 256) (u : Fin 1) (i : Fin 128) :
    shapeCast ⟨3, ![256, 1, 128]⟩ v h (ix3 p u i) = v (ix2 p i) := by
  refine shapeCast_apply v h (ix3 p u i) (ix2 p i) ?_
  rw [Shape.rowMajor_val_two, Shape.rowMajor_val_three]
  show p.val * 128 + i.val = (p.val * 1 + u.val) * 128 + i.val
  have := u.isLt
  omega

/-- Copied along the middle axis: `(p, k, i)` reads `(p, 0, i)`. -/
theorem copyMid_apply (v : (⟨3, ![256, 1, 128]⟩ : Shape).Idx → α)
    (h : (⟨3, ![256, 1, 128]⟩ : Shape).Broadcasts ⟨3, ![256, 32, 128]⟩) (p : Fin 256) (k : Fin 32) (i : Fin 128) :
    broadcastTo ⟨3, ![256, 32, 128]⟩ v h (ix3 p k i) = v (ix3 p (0 : Fin 1) i) := by
  refine broadcastTo_apply v h (ix3 p k i) (ix3 p (0 : Fin 1) i) fun a => ?_
  match a with
  | ⟨0, _⟩ => rfl
  | ⟨1, _⟩ => rfl
  | ⟨2, _⟩ => rfl

/-- The last two axes merged: `(p, 128 k + i)` reads `(p, k, i)`. -/
theorem mergeLast_apply (v : (⟨3, ![256, 32, 128]⟩ : Shape).Idx → α)
    (h : (⟨3, ![256, 32, 128]⟩ : Shape).ShapeCasts ⟨2, ![256, 4096]⟩) (p : Fin 256) (k : Fin 32) (i : Fin 128) :
    shapeCast ⟨2, ![256, 4096]⟩ v h (ix2 p (flat k i)) = v (ix3 p k i) := by
  refine shapeCast_apply v h _ (ix3 p k i) ?_
  rw [Shape.rowMajor_val_two, Shape.rowMajor_val_three]
  show (p.val * 32 + k.val) * 128 + i.val = p.val * 4096 + (128 * k.val + i.val)
  omega

end Cert.Spline
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KernelValue.lean ====
/-
  What the kernel leaves in its result array, at the extended reals.

  At a grid point the body holds a block of 256 samples `x0` and the whole coefficient table `x1`, re-laid by the
  host as a `[4096, 256]` matrix whose row `128 k + i` holds, at column `o`, the coefficient `c[o, i, k]`. It builds a
  `[256, 32, 128]` weighting that at `(p, k, i)` is `1 - t` when `k` is the knot on the left of sample `(p, i)`, `t` when `k`
  is the knot on its right and zero otherwise, merges the last two axes and multiplies by the table. Entry `(p, o)` of
  the product is a sum over 4096 rows; read input by input it is a sum over 32 knots of which two terms survive, and these
  are the two terms of the linear interpolation. The eight blocks of 256 samples tile the result array.
-/
import proofs.«139605_j15350213116057_1_alg».proof.Proof.Gen.KernelIdeal.Value
import Idealize.ShloMosaic.Lib.StableHlo.Run
import Idealize.ShloMosaic.Lib.Pipeline.Value
import Idealize.ShloMosaic.Lib.ValueIdx
import Idealize.ShloMosaic.PureOps.Ideal.Laws
import proofs.«139605_j15350213116057_1_alg».proof.Proof.Spec
import proofs.«139605_j15350213116057_1_alg».proof.Proof.Taps
import proofs.«139605_j15350213116057_1_alg».proof.Proof.Layout
import proofs.«139605_j15350213116057_1_alg».proof.Proof.LibPlainDot

noncomputable section

open scoped BigOperators

namespace Cert.KernelIdeal.SplineValue

open Cert.KernelIdeal Cert.KernelIdeal.Gen Idealize.ShloMosaic Idealize.ShloMosaic.TcCoe Idealize.SL.Sem
open Idealize.ShloMosaic.ValueIdx
open Idealize.ShloMosaic.Pipeline (Dat)
open Cert.Spline Cert.Gcn

/-! ## The body's product at an entry -/

/-- The weighting at `(p, k, i)`, as the body spells it at an index. -/
abbrev weightAt (x : EReal) (k : Fin 32) : EReal :=
  Scalar.select (IntOp.cmpi .eq (BitVec.ofNat 32 k.val) (knot (pos x))) (one - frac x)
    (Scalar.select (IntOp.cmpi .eq (BitVec.ofNat 32 k.val) (knotR x)) (frac x) (Ideal.ofBits .f32 0x00000000#32))

theorem cmpi_apply {s : Shape} {w : Nat} (p : CmpIPredicate) (a b : IVec s w) (i : s.Idx) :
    cmpi p a b i = IntOp.cmpi p (a i) (b i) := rfl

theorem fptosi_apply {s : Shape} {φ : FTy} (w : Nat) (a : FVec Ideal s φ) (i : s.Idx) :
    (fptosi w a : IVec s w) i = Ideal.fptosi w (a i) := rfl

theorem addi_apply {s : Shape} {w : Nat} (a b : IVec s w) (i : s.Idx) : addi a b i = IntOp.addi (a i) (b i) := rfl

/-- Entry `(p, o)` of the body's product: the interpolation over the 128 inputs, read off the re-laid table. -/
theorem pay_apply (x0 : Vec Ideal S256x128 .f32) (x1 : Vec Ideal S4096x256 .bf16) (p q : Fin 256) :
    k0_pay1 (F := Ideal) x0 x1 (ix2 p q) = ∑ i : Fin 128,
      (x1 (ix2 (flat (crow 32 (by decide) (knot (pos (x0 (ix2 p i))))) i) q) * (one - frac (x0 (ix2 p i)))
        + x1 (ix2 (flat (crow 32 (by decide) (knotR (x0 (ix2 p i)))) i) q) * frac (x0 (ix2 p i))) := by
  unfold k0_pay1
  refine (Cert.PlainDot.matmul_zero_apply _ rfl none _ _ (ix2 p q)).trans ?_
  refine (sum_knot_major _ (fun k i => weightAt (x0 (ix2 p i)) k * x1 (ix2 (flat k i) q)) ?_).trans ?_
  · intro k i
    refine congrArg₂ (· * ·) ?_ ?_
    · refine (mergeLast_apply _ _ p k i).trans ?_
      simp only [truncf_apply, select_apply, cmpi_apply, copyMid_apply, addMid_apply, shapeCast_self, subf_apply, broadcast_apply]
      rw [iota_single_apply .tc S256x32x128 32 (1 : Fin 3) iota_S256x32x128_d1_w32 (ix3 p k i)]
      rfl
    · exact congrFun (shapeCast_self _ _) _
  · refine Finset.sum_congr rfl fun i _ => ?_
    have hr := knot_range (pos (x0 (ix2 p i)))
    have := sum_knot_taps (knot (pos (x0 (ix2 p i)))) hr.1 hr.2 (one - frac (x0 (ix2 p i))) (frac (x0 (ix2 p i)))
      (fun k => x1 (ix2 (flat k i) q))
    rw [← this]
    refine Finset.sum_congr rfl fun k _ => ?_
    show weightAt (x0 (ix2 p i)) k * _ = _
    unfold weightAt
    rw [Ideal.ofBits_zero_f32]

variable (m : (ℓ : Loc nD τ sig) → Buf (Elt Ideal) ℓ) (ρ : Dev nD → PrngReg)

/-! ## The re-laid table -/

/-- Row `128 k + i`, column `o` of the matrix the region finds is the coefficient `c[o, i, k]`. -/
theorem table_apply (c : Dev nD) (k : Fin 32) (i : Fin 128) (q : Fin 256) :
    (V m c main_v2 : S4096x256.Idx → EReal) (ix2 (flat k i) q)
      = (m ((c : Thread nD τ).loc main_arg1) : S256x128x32.Idx → EReal) (ix3 q i k) := by
  have e : @Eq (S4096x256.Idx → EReal) (V m c main_v2)
      (truncf (F := Ideal) .bf16 (shapeCast S4096x256 (transpose S32x128x256 [2, 1, 0]
          (m ((c : Thread nD τ).loc main_arg1) : S256x128x32.Idx → EReal) transposes_S256x128x32_S32x128x256_2_1_0)
          shapeCasts_S32x128x256_S4096x256) bitsLt_bf16_f32) := by
    dsimp only [Gen.V, Gen.hostOps0]; after_results; rfl
  rw [e]
  -- the merged row `128 k + i` is row `(k, i)` of the `[32, 128, 256]` array, which is the table with its axes reversed
  have h1 := shapeCast_apply (transpose S32x128x256 [2, 1, 0]
      (m ((c : Thread nD τ).loc main_arg1) : S256x128x32.Idx → EReal) transposes_S256x128x32_S32x128x256_2_1_0)
    shapeCasts_S32x128x256_S4096x256 (ix2 (flat k i) q) (ix3 k i q) (by
      rw [Shape.rowMajor_val_two, Shape.rowMajor_val_three]
      show (k.val * 128 + i.val) * 256 + q.val = (128 * k.val + i.val) * 256 + q.val
      omega)
  have h2 := transpose_apply [2, 1, 0] (m ((c : Thread nD τ).loc main_arg1) : S256x128x32.Idx → EReal)
    transposes_S256x128x32_S32x128x256_2_1_0 (ix3 k i q) (ix3 q i k) (fun b => match b with
      | ⟨0, _⟩ => rfl
      | ⟨1, _⟩ => rfl
      | ⟨2, _⟩ => rfl)
  exact h1.trans h2

/-! ## From blocks to the array -/

theorem hz : (![0, 0] : Fin 2 → Nat) = fun _ => 0 := funext fun a => by fin_cases a <;> rfl

/-- The printed index maps over the eight points: the sample block and the result block move together along the
    samples, the table's block is the table. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the layer's result. -/
theorem flushed_eq (c : Dev nD) (t : Fin cfg0.N) :
    (dats m 0 c).flushed 2 t = ((cfg0.win 2).blk t).view.read (Elt Ideal)
      (spline (V m c main_arg0) (m ((c : Thread nD τ).loc main_arg1))) := by
  rw [Value.flushed2]
  unfold out0_2
  rw [View.canon_unit_zero hz]
  simp only [View.ld_unit_zero (S := S256x128) hz, View.ld_unit_zero (S := S4096x256) hz]
  obtain ⟨e00, e01, e10, e11, e20, e21⟩ := idx_facts t
  funext j
  obtain ⟨p, q, rfl⟩ : ∃ (p : Fin 256) (q : Fin 256), j = ix2 p q := ⟨j 0, j 1, eq_ix2 j⟩
  show k0_pay1 (iblk m c 0 t) (iblk m c 1 t) (ix2 p q)
    = spline (V m c main_arg0) (m ((c : Thread nD τ).loc main_arg1)) (((cfg0.win 2).blk t).view.emb (ix2 p q))
  refine (pay_apply _ _ p q).trans ?_
  unfold spline
  -- the result block's row and column in the array
  have hq : (((cfg0.win 2).blk t).view.emb (ix2 p q)) 1 = q := by
    apply Fin.ext
    show win0_2.index t (1 : Fin 2) * 256 + 1 * q.val = q.val
    omega
  -- a sample of the block is the array's sample in the same row
  have hx : ∀ i : Fin 128, iblk m c 0 t (ix2 p i)
      = V m c main_arg0 (ix2 ((((cfg0.win 2).blk t).view.emb (ix2 p q)) 0) i) := by
    intro i
    show V m c main_arg0 (((cfg0.win 0).blk t).view.emb (ix2 p i)) = _
    refine congrArg (V m c main_arg0) (funext fun a => Fin.ext ?_)
    match a with
    | ⟨0, _⟩ =>
      show win0_0.index t (0 : Fin 2) * 256 + 1 * p.val = win0_2.index t (0 : Fin 2) * 256 + 1 * p.val
      omega
    | ⟨1, _⟩ =>
      show win0_0.index t (1 : Fin 2) * 128 + 1 * i.val = i.val
      omega
  -- the table's block is the table
  have hc : ∀ (k : Fin 32) (i : Fin 128), iblk m c 1 t (ix2 (flat k i) q)
      = (m ((c : Thread nD τ).loc main_arg1) : S256x128x32.Idx → EReal) (ix3 q i k) := by
    intro k i
    rw [← table_apply m c k i q]
    show V m c main_v2 (((cfg0.win 1).blk t).view.emb (ix2 (flat k i) q)) = _
    refine congrArg (V m c main_v2) (funext fun a => Fin.ext ?_)
    match a with
    | ⟨0, _⟩ =>
      show win0_1.index t (0 : Fin 2) * 4096 + 1 * (flat k i).val = (flat k i).val
      omega
    | ⟨1, _⟩ =>
      show win0_1.index t (1 : Fin 2) * 256 + 1 * q.val = q.val
      omega
  refine Finset.sum_congr rfl fun i _ => ?_
  rw [hx i, hc, hc, hq]

/-- An index of the array is in point `t`'s block iff each coordinate is in the block's range on its axis. -/
theorem mem_blk (t : Fin cfg0.N) (i : S2048x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v3).slice (win0_2.rect t)).set ↔ _
  rw [View.set_slice_whole, Rect.mem_set_unit]
  exact Iff.rfl

/-- Every entry of the result array is in the block of the point that holds its sample. -/
theorem cover (i : S2048x256.Idx) :
    ∃ t : Fin cfg0.N, (cfg0.win 2).flush t = true ∧ i ∈ ((cfg0.win 2).blk t).view.set := by
  have hi0 : (i 0).val < 2048 := (i 0).isLt
  have hi1 : (i 1).val < 256 := (i 1).isLt
  have hN : cfg0.N = 8 := N_0
  let t : Fin cfg0.N := ⟨(i 0).val / 256, by rw [hN]; omega⟩
  obtain ⟨-, -, -, -, e20, e21⟩ := idx_facts t
  have ht : t.val = (i 0).val / 256 := rfl
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- The result array after the run is the layer's result of the two arguments. -/
theorem final (c : Dev nD) :
    (dats m 0 c).arrAt 2 cfg0.N
      = spline (m ((c : Thread nD τ).loc main_arg0)) (m ((c : Thread nD τ).loc main_arg1)) := by
  rw [← V_main_arg0 m c]
  exact (dats m 0 c).arrAt_eq_of_cover 2 _ (fun t _ => flushed_eq m c t) cover

/-- Every run of the idealized kernel ends with the result array at the layer's result and the arguments unchanged. -/
theorem run : θ_run defs (onTc (τ := τ) (main (F := Ideal))) ⟨m, fun _ => 0, ρ⟩ fun r => ∀ c : Dev nD,
      r.2.mem ((c : Thread nD τ).loc main_v3)
        = spline (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.SplineValue

end
-- ==== Proof.LibNary3Apply.lean ====
import Idealize.ShloMosaic.Lib.StableHlo.Run

noncomputable section

/-! # A host operation of three operands, its result with the operands as plain arguments

An operation over a literal family of three references leaves, at its result buffer, its function of the three
operands' contents. Here that value is written `apply3 f X Y Z` with the three contents as ordinary arguments, each read at
its own reference, so that a one-pass reader of a line of operations rewrites the three reads before the function is
applied to them (a function that puts its operands in a place whose type a later argument depends on, such as the piece list
of a concatenation, otherwise hides them from the reader). -/

namespace Cert.Nary3

open Idealize.ShloMosaic Idealize.ShloMosaic.StableHlo

variable {τ : Topo} {sig : RefSig} {Val : EltTy → Type} {x a b y : Ref sig .tc}

/-- A function of a family of three contents, applied to the three contents one by one. -/
def apply3 (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (Fin.cons X (Fin.cons Y (Fin.cons Z (fun i => i.elim0))))

/-- The result of an operation over three literal references, the operands as plain arguments. -/
theorem nary3_result_apply
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same, with the result reference un-indexed, for a one-pass reader. -/
theorem nary3_result_apply'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result_apply f hxs hy F

end Cert.Nary3

end
-- ==== Proof.LibTripleGather.lean ====
/-
  Single entries of a three-axis table picked by three index arrays, read at an index.

  `x[i0, i1, i2]` with three index arrays of one shape `[E0, E1, E2]` lowers in two steps. The three arrays, each with a
  trailing unit axis, are joined along that axis into triples `[E0, E1, E2, 3]`. A gather with all three operand axes
  collapsed then reads, for result element `e`, the table's entry whose coordinate on axis `a` is component `a` of the
  triple at `e`, read as a signed integer and clamped into the axis.
-/
import Idealize.ShloMosaic.Lib.Pipeline.Value
import Idealize.ShloMosaic.Lib.WordArith
import proofs.«139605_j15350213116057_1_alg».proof.Proof.LibIndex

namespace Cert.PointGather

open Idealize.ShloMosaic Idealize.ShloMosaic.ValueIdx Cert.Gcn

/-- The dimension numbers of a triple gather: operand `[A, B, C]`, start indices `[E0, E1, E2, 3]`, result `[E0, E1, E2]`. -/
abbrev tripleGatherDims (A B C E0 E1 E2 : Nat)
    (wf : GatherDims.WF ⟨3, ![A, B, C]⟩ ⟨4, ![E0, E1, E2, 3]⟩ ⟨3, ![E0, E1, E2]⟩ [] [0, 1, 2] [] [0, 1, 2] [] 3 ![1, 1, 1]) :
    GatherDims ⟨3, ![A, B, C]⟩ ⟨4, ![E0, E1, E2, 3]⟩ ⟨3, ![E0, E1, E2]⟩ where
  offsetDims := []
  collapsedSliceDims := [0, 1, 2]
  operandBatchingDims := []
  startIndicesBatchingDims := []
  startIndexMap := [0, 1, 2]
  indexVectorDim := 3
  sliceSizes := ![1, 1, 1]
  wf := wf

/-- A triple gather at `e` is the table at the three clamped components of the triple at `e`. -/
theorem gatherTriple_apply {α : Type} {A B C E0 E1 E2 : Nat} (hA : 0 < A) (hB : 0 < B) (hC : 0 < C)
    (wf : GatherDims.WF ⟨3, ![A, B, C]⟩ ⟨4, ![E0, E1, E2, 3]⟩ ⟨3, ![E0, E1, E2]⟩ [] [0, 1, 2] [] [0, 1, 2] [] 3 ![1, 1, 1])
    (x : (⟨3, ![A, B, C]⟩ : Shape).Idx → α) (idx : IVec ⟨4, ![E0, E1, E2, 3]⟩ 32) (e : (⟨3, ![E0, E1, E2]⟩ : Shape).Idx) :
    Host.gather (tripleGatherDims A B C E0 E1 E2 wf) x idx e
      = x (ix3 (crow A hA (idx (ix4 (e 0) (e 1) (e 2) (0 : Fin 3))))
          (crow B hB (idx (ix4 (e 0) (e 1) (e 2) (1 : Fin 3))))
          (crow C hC (idx (ix4 (e 0) (e 1) (e 2) (2 : Fin 3))))) := by
  unfold Host.gather
  congr 1
  funext a
  refine Fin.ext ?_
  -- no axis is a batching axis, and none is kept (all three are collapsed)
  have hnb : ∀ a : Fin 3, a ∉ (tripleGatherDims A B C E0 E1 E2 wf).operandBatchingDims := fun _ => List.not_mem_nil
  have hall : ∀ a : Fin 3, a ∈ ([0, 1, 2] : List (Fin 3)) := by decide
  have hnk : ∀ a : Fin 3, a ∉ (tripleGatherDims A B C E0 E1 E2 wf).sKept := fun a h =>
    ((GatherDims.mem_sKept _ _).mp h).1 (hall a)
  match a with
  | ⟨0, _⟩ =>
    show (tripleGatherDims A B C E0 E1 E2 wf).start e idx 0 + (tripleGatherDims A B C E0 E1 E2 wf).batchCoord e 0
      + (tripleGatherDims A B C E0 E1 E2 wf).offCoord e 0 = _
    rw [GatherDims.batchCoord_eq_zero _ _ _ (hnb 0), GatherDims.offCoord_eq_zero _ _ _ (hnk 0)]
    simp only [Nat.add_zero]
    unfold GatherDims.start
    have hm : (0 : Fin 3) ∈ (tripleGatherDims A B C E0 E1 E2 wf).startIndexMap :=
      show (0 : Fin 3) ∈ ([0, 1, 2] : List (Fin 3)) by decide
    rw [dif_pos hm]
    -- component 0 of the triple at `e` is read at `[e, 0]`
    have hsi : (tripleGatherDims A B C E0 E1 E2 wf).siIdx e ⟨List.idxOf (0 : Fin 3) (tripleGatherDims A B C E0 E1 E2 wf).startIndexMap,
        List.idxOf_lt_length_iff.2 hm⟩ = ix4 (e 0) (e 1) (e 2) (0 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (tripleGatherDims A B C E0 E1 E2 wf).start e idx 1 + (tripleGatherDims A B C E0 E1 E2 wf).batchCoord e 1
      + (tripleGatherDims A B C E0 E1 E2 wf).offCoord e 1 = _
    rw [GatherDims.batchCoord_eq_zero _ _ _ (hnb 1), GatherDims.offCoord_eq_zero _ _ _ (hnk 1)]
    simp only [Nat.add_zero]
    unfold GatherDims.start
    have hm : (1 : Fin 3) ∈ (tripleGatherDims A B C E0 E1 E2 wf).startIndexMap :=
      show (1 : Fin 3) ∈ ([0, 1, 2] : List (Fin 3)) by decide
    rw [dif_pos hm]
    -- component 1 of the triple at `e` is read at `[e, 1]`
    have hsi : (tripleGatherDims A B C E0 E1 E2 wf).siIdx e ⟨List.idxOf (1 : Fin 3) (tripleGatherDims A B C E0 E1 E2 wf).startIndexMap,
        List.idxOf_lt_length_iff.2 hm⟩ = ix4 (e 0) (e 1) (e 2) (1 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (tripleGatherDims A B C E0 E1 E2 wf).start e idx 2 + (tripleGatherDims A B C E0 E1 E2 wf).batchCoord e 2
      + (tripleGatherDims A B C E0 E1 E2 wf).offCoord e 2 = _
    rw [GatherDims.batchCoord_eq_zero _ _ _ (hnb 2), GatherDims.offCoord_eq_zero _ _ _ (hnk 2)]
    simp only [Nat.add_zero]
    unfold GatherDims.start
    have hm : (2 : Fin 3) ∈ (tripleGatherDims A B C E0 E1 E2 wf).startIndexMap :=
      show (2 : Fin 3) ∈ ([0, 1, 2] : List (Fin 3)) by decide
    rw [dif_pos hm]
    -- component 2 of the triple at `e` is read at `[e, 2]`
    have hsi : (tripleGatherDims A B C E0 E1 E2 wf).siIdx e ⟨List.idxOf (2 : Fin 3) (tripleGatherDims A B C E0 E1 E2 wf).startIndexMap,
        List.idxOf_lt_length_iff.2 hm⟩ = ix4 (e 0) (e 1) (e 2) (2 : Fin 3) := by
      funext b; refine Fin.ext ?_
      match b with
      | ⟨0, _⟩ => rfl
      | ⟨1, _⟩ => rfl
      | ⟨2, _⟩ => rfl
      | ⟨3, _⟩ => rfl
    rw [hsi]
    rfl

/-- Three arrays with a trailing unit axis joined along it, read at `[e, c]`: array `c` at `[e, 0]`. -/
theorem joinTriple_apply {α : Type} {E0 E1 E2 : Nat}
    (u0 u1 u2 : (⟨4, ![E0, E1, E2, 1]⟩ : Shape).Idx → α)
    (h : Shape.Concatenates (([⟨⟨4, ![E0, E1, E2, 1]⟩, u0⟩, ⟨⟨4, ![E0, E1, E2, 1]⟩, u1⟩, ⟨⟨4, ![E0, E1, E2, 1]⟩, u2⟩] :
      List ((s : Shape) × (s.Idx → α))).map (·.1)) ⟨4, ![E0, E1, E2, 3]⟩ 3)
    (p : Fin E0) (q : Fin E1) (r : Fin E2) :
    concatenate ⟨4, ![E0, E1, E2, 3]⟩ 3 [⟨⟨4, ![E0, E1, E2, 1]⟩, u0⟩, ⟨⟨4, ![E0, E1, E2, 1]⟩, u1⟩, ⟨⟨4, ![E0, E1, E2, 1]⟩, u2⟩] h
        (ix4 p q r (0 : Fin 3)) = u0 (ix4 p q r (0 : Fin 1))
    ∧ concatenate ⟨4, ![E0, E1, E2, 3]⟩ 3 [⟨⟨4, ![E0, E1, E2, 1]⟩, u0⟩, ⟨⟨4, ![E0, E1, E2, 1]⟩, u1⟩, ⟨⟨4, ![E0, E1, E2, 1]⟩, u2⟩] h
        (ix4 p q r (1 : Fin 3)) = u1 (ix4 p q r (0 : Fin 1))
    ∧ concatenate ⟨4, ![E0, E1, E2, 3]⟩ 3 [⟨⟨4, ![E0, E1, E2, 1]⟩, u0⟩, ⟨⟨4, ![E0, E1, E2, 1]⟩, u1⟩, ⟨⟨4, ![E0, E1, E2, 1]⟩, u2⟩] h
        (ix4 p q r (2 : Fin 3)) = u2 (ix4 p q r (0 : Fin 1)) := by
  have hi : ∀ c : Fin 3, ∀ b : Fin 4, b.cast (rfl : (4 : Nat) = 4) ≠ (3 : Fin 4) →
      ((ix4 p q r (0 : Fin 1) : (⟨4, ![E0, E1, E2, 1]⟩ : Shape).Idx) b).val
        = ((ix4 p q r c : (⟨4, ![E0, E1, E2, 3]⟩ : Shape).Idx) (b.cast rfl)).val := by
    intro c b hb
    match b with
    | ⟨0, _⟩ => rfl
    | ⟨1, _⟩ => rfl
    | ⟨2, _⟩ => rfl
    | ⟨3, _⟩ => exact absurd rfl hb
  refine ⟨?_, ?_, ?_⟩
  · exact concatenate_apply_piece (3 : Fin 4) [⟨⟨4, ![E0, E1, E2, 1]⟩, u0⟩, ⟨⟨4, ![E0, E1, E2, 1]⟩, u1⟩, ⟨⟨4, ![E0, E1, E2, 1]⟩, u2⟩] h (ix4 p q r (0 : Fin 3)) 0 (show (0 : Nat) < 3 by decide) ⟨4, ![E0, E1, E2, 1]⟩ u0 rfl rfl 0 rfl
      (ix4 p q r (0 : Fin 1)) (hi 0) rfl
  · exact concatenate_apply_piece (3 : Fin 4) [⟨⟨4, ![E0, E1, E2, 1]⟩, u0⟩, ⟨⟨4, ![E0, E1, E2, 1]⟩, u1⟩, ⟨⟨4, ![E0, E1, E2, 1]⟩, u2⟩] h (ix4 p q r (1 : Fin 3)) 1 (show (1 : Nat) < 3 by decide) ⟨4, ![E0, E1, E2, 1]⟩ u1 rfl rfl 1 rfl
      (ix4 p q r (0 : Fin 1)) (hi 1) rfl
  · exact concatenate_apply_piece (3 : Fin 4) [⟨⟨4, ![E0, E1, E2, 1]⟩, u0⟩, ⟨⟨4, ![E0, E1, E2, 1]⟩, u1⟩, ⟨⟨4, ![E0, E1, E2, 1]⟩, u2⟩] h (ix4 p q r (2 : Fin 3)) 2 (show (2 : Nat) < 3 by decide) ⟨4, ![E0, E1, E2, 1]⟩ u2 rfl rfl 2 rfl
      (ix4 p q r (0 : Fin 1)) (hi 2) rfl

/-- jnp's wrap of a negative index (`w + N` when `w < 0`) leaves a word that is not negative as it is. -/
theorem wrap_of_nonneg (w N : BitVec 32) (h : 0 ≤ w.toInt) :
    Scalar.select (IntOp.cmpi .slt w 0#32) (IntOp.addi w N) w = w := by
  have hf : w.slt 0#32 = false := by
    rw [Bool.eq_false_iff]
    intro hlt
    have := BitVec.slt_iff_toInt_lt.mp hlt
    have e0 : (0#32 : BitVec 32).toInt = 0 := by decide
    omega
  show Scalar.select (BitVec.ofBool (w.slt 0#32)) _ _ = _
  rw [hf]
  exact select_zero _ _

/-- The word of a number below `2³¹` is not negative. -/
theorem toInt_ofNat_nonneg (n : Nat) (h : n < 2 ^ 31) : 0 ≤ (BitVec.ofNat 32 n).toInt := by
  rw [Idealize.ShloMosaic.WordArith.toInt_ofNat_small n h]; omega

/-- The word of a row number clamps to that row. -/
theorem crow_ofNat {N : Nat} (hN : 0 < N) (k : Fin N) (h : N < 2 ^ 31) : crow N hN (BitVec.ofNat 32 k.val) = k := by
  apply Fin.ext
  show min (BitVec.ofNat 32 k.val).toInt.toNat (N - 1) = k.val
  have hk := k.isLt
  rw [Idealize.ShloMosaic.WordArith.toInt_ofNat_small k.val (by omega)]
  omega

end Cert.PointGather
-- ==== Proof.RefValue.lean ====
/-
  The reference's result, at the extended reals, is the spline layer's function of its two arguments.

  The reference computes each sample's grid position as `((x + 1) / 2) · 31`, takes its floor, converts it to an integer
  and clamps that into `[0, 30]`: the knot on the left. It reads the two neighbouring coefficients of every row `(o, i)` by
  indexing the table with three index arrays — the row numbers `o`, the input numbers `i` and the knot — after jnp's wrap of
  negative indices, which changes none of them since none is negative; the indices are in range, so clamping them into the
  table changes nothing either. It then interpolates and sums over the inputs from zero.
-/
import proofs.«139605_j15350213116057_1_alg».proof.Proof.RefRead
import Idealize.ShloMosaic.Lib.ValueIdx
import Idealize.ShloMosaic.PureOps.Ideal.Laws
import proofs.«139605_j15350213116057_1_alg».proof.Proof.Spec
import proofs.«139605_j15350213116057_1_alg».proof.Proof.LibTripleGather

noncomputable section

open scoped BigOperators

namespace Cert.ReferenceIdeal.SplineValue

open Cert.ReferenceIdeal Cert.ReferenceIdeal.Gen Cert.ReferenceIdeal.ReadP Idealize.ShloMosaic Idealize.ShloMosaic.TcCoe
open Idealize.ShloMosaic.ValueIdx Cert.Spline Cert.Gcn Cert.PointGather

variable (x0 : (⟨S2048x128, .f32⟩ : BufTy).Contents (Elt Ideal)) (x1 : (⟨S256x128x32, .f32⟩ : BufTy).Contents (Elt Ideal))

/-! ## Position, knot and offset of a sample -/

theorem pos_apply (b : Fin 2048) (o : Fin 256) (i : Fin 128) :
    val_main_v7 (F := Ideal) x0 (ix3 b o i) = pos (x0 (ix2 b i)) := by
  rw [val_main_v7_apply, val_main_v6_apply, val_main_v4_apply, val_main_v2_apply, val_main_v0_apply, val_main_v1_apply,
    val_main_cst_apply, val_main_v3_apply, val_main_cst_0_apply, val_main_v5_apply, val_main_cst_1_apply]
  have hidx : idx_main_v0 (idx_main_v7 (ix3 b o i)) = ix2 b i := by
    funext a; refine Fin.ext ?_
    match a with
    | ⟨0, _⟩ => rfl
    | ⟨1, _⟩ => rfl
  rw [hidx]
  exact pos_of_halve _

theorem knot_apply (b : Fin 2048) (o : Fin 256) (i : Fin 128) :
    val_main_v10 (F := Ideal) x0 (ix3 b o i) = knot (pos (x0 (ix2 b i))) := by
  rw [val_main_v10_apply, val_main_call0_v4_apply, val_main_call0_v3_apply, val_main_c_2_apply, val_main_call0_v2_apply,
    val_main_call0_v1_apply, val_main_call0_v0_apply, val_main_c_apply, val_main_v9_apply, val_main_v8_apply, pos_apply]
  exact knot_of_clip _

theorem knotR_apply (b : Fin 2048) (o : Fin 256) (i : Fin 128) :
    val_main_v12 (F := Ideal) x0 (ix3 b o i) = knotR (x0 (ix2 b i)) := by
  rw [val_main_v12_apply, val_main_v11_apply, val_main_c_3_apply, knot_apply]

theorem frac_apply (b : Fin 2048) (o : Fin 256) (i : Fin 128) :
    val_main_v62 (F := Ideal) x0 (ix3 b o i) = frac (x0 (ix2 b i)) := by
  rw [val_main_v62_apply, val_main_v61_apply, pos_apply, knot_apply]
  rfl

/-- The knot on the right is a word in `[1, 31]`. -/
theorem knotR_nonneg (x : EReal) : 0 ≤ (knotR x).toInt := by
  have hr := knot_range (pos x)
  have e1 : (1#32 : BitVec 32).toInt = 1 := by decide
  have := Idealize.ShloMosaic.WordArith.toInt_add_of_bounds (knot (pos x)) 1#32 (by rw [e1]; omega) (by rw [e1]; omega)
  show 0 ≤ (knot (pos x) + 1#32).toInt
  rw [this, e1]; omega

/-! ## The index triples of the two gathers -/

theorem triple0_apply (b : Fin 2048) (o : Fin 256) (i : Fin 128) :
    val_main_v37 (F := Ideal) x0 (ix4 b o i (0 : Fin 3)) = BitVec.ofNat 32 o.val
    ∧ val_main_v37 (F := Ideal) x0 (ix4 b o i (1 : Fin 3)) = BitVec.ofNat 32 i.val
    ∧ val_main_v37 (F := Ideal) x0 (ix4 b o i (2 : Fin 3)) = knot (pos (x0 (ix2 b i))) := by
  obtain ⟨h0, h1, h2⟩ := joinTriple_apply (val_main_v34 (F := Ideal)) (val_main_v35 (F := Ideal)) (val_main_v36 (F := Ideal) x0)
    concatenates_S2048x256x128x1_S2048x256x128x1_S2048x256x128x1_S2048x256x128x3_d3 b o i
  refine ⟨h0.trans ?_, h1.trans ?_, h2.trans ?_⟩
  · rw [val_main_v34_apply, val_main_v32_apply, val_main_v21_apply, val_main_v18_apply, val_main_v20_apply, val_main_v14_apply,
      val_main_v13_apply, val_main_v17_apply, val_main_c_4_apply, val_main_v19_apply, val_main_c_5_apply]
    exact wrap_of_nonneg (BitVec.ofNat 32 o.val) 256#32 (toInt_ofNat_nonneg _ (by omega))
  · rw [val_main_v35_apply, val_main_v33_apply, val_main_v26_apply, val_main_v23_apply, val_main_v25_apply, val_main_v16_apply,
      val_main_v15_apply, val_main_v22_apply, val_main_c_6_apply, val_main_v24_apply, val_main_c_7_apply]
    exact wrap_of_nonneg (BitVec.ofNat 32 i.val) 128#32 (toInt_ofNat_nonneg _ (by omega))
  · rw [val_main_v36_apply, val_main_v31_apply, val_main_v28_apply, val_main_v30_apply, val_main_v27_apply, val_main_c_8_apply,
      val_main_v29_apply, val_main_c_9_apply]
    have hidx : idx_main_v36 (ix4 b o i (0 : Fin 1)) = ix3 b o i := by
      funext a; refine Fin.ext ?_
      match a with
      | ⟨0, _⟩ => rfl
      | ⟨1, _⟩ => rfl
      | ⟨2, _⟩ => rfl
    rw [hidx, knot_apply]
    exact wrap_of_nonneg _ 32#32 (knot_range _).1

theorem triple1_apply (b : Fin 2048) (o : Fin 256) (i : Fin 128) :
    val_main_v59 (F := Ideal) x0 (ix4 b o i (0 : Fin 3)) = BitVec.ofNat 32 o.val
    ∧ val_main_v59 (F := Ideal) x0 (ix4 b o i (1 : Fin 3)) = BitVec.ofNat 32 i.val
    ∧ val_main_v59 (F := Ideal) x0 (ix4 b o i (2 : Fin 3)) = knotR (x0 (ix2 b i)) := by
  obtain ⟨h0, h1, h2⟩ := joinTriple_apply (val_main_v56 (F := Ideal)) (val_main_v57 (F := Ideal)) (val_main_v58 (F := Ideal) x0)
    concatenates_S2048x256x128x1_S2048x256x128x1_S2048x256x128x1_S2048x256x128x3_d3 b o i
  refine ⟨h0.trans ?_, h1.trans ?_, h2.trans ?_⟩
  · rw [val_main_v56_apply, val_main_v54_apply, val_main_v43_apply, val_main_v40_apply, val_main_v42_apply, val_main_v14_apply,
      val_main_v13_apply, val_main_v39_apply, val_main_c_10_apply, val_main_v41_apply, val_main_c_11_apply]
    exact wrap_of_nonneg (BitVec.ofNat 32 o.val) 256#32 (toInt_ofNat_nonneg _ (by omega))
  · rw [val_main_v57_apply, val_main_v55_apply, val_main_v48_apply, val_main_v45_apply, val_main_v47_apply, val_main_v16_apply,
      val_main_v15_apply, val_main_v44_apply, val_main_c_12_apply, val_main_v46_apply, val_main_c_13_apply]
    exact wrap_of_nonneg (BitVec.ofNat 32 i.val) 128#32 (toInt_ofNat_nonneg _ (by omega))
  · rw [val_main_v58_apply, val_main_v53_apply, val_main_v50_apply, val_main_v52_apply, val_main_v49_apply, val_main_c_14_apply,
      val_main_v51_apply, val_main_c_15_apply]
    have hidx : idx_main_v58 (ix4 b o i (0 : Fin 1)) = ix3 b o i := by
      funext a; refine Fin.ext ?_
      match a with
      | ⟨0, _⟩ => rfl
      | ⟨1, _⟩ => rfl
      | ⟨2, _⟩ => rfl
    rw [hidx, knotR_apply]
    exact wrap_of_nonneg _ 32#32 (knotR_nonneg _)

/-! ## The two gathered coefficients -/

theorem gather0_apply (b : Fin 2048) (o : Fin 256) (i : Fin 128) :
    val_main_v38 (F := Ideal) x0 x1 (ix3 b o i) = x1 (ix3 o i (crow 32 (by decide) (knot (pos (x0 (ix2 b i)))))) := by
  obtain ⟨h0, h1, h2⟩ := triple0_apply x0 b o i
  refine (gatherTriple_apply (A := 256) (B := 128) (C := 32) (by decide) (by decide) (by decide) gather_S256x128x32_S2048x256x128x3_S2048x256x128_n_012_n_n_012_3_111_wf x1
    (val_main_v37 (F := Ideal) x0) (ix3 b o i)).trans ?_
  show x1 (ix3 (crow 256 _ (val_main_v37 (F := Ideal) x0 (ix4 b o i (0 : Fin 3))))
    (crow 128 _ (val_main_v37 (F := Ideal) x0 (ix4 b o i (1 : Fin 3))))
    (crow 32 _ (val_main_v37 (F := Ideal) x0 (ix4 b o i (2 : Fin 3))))) = _
  rw [h0, h1, h2, crow_ofNat _ o (by decide), crow_ofNat _ i (by decide)]

theorem gather1_apply (b : Fin 2048) (o : Fin 256) (i : Fin 128) :
    val_main_v60 (F := Ideal) x0 x1 (ix3 b o i) = x1 (ix3 o i (crow 32 (by decide) (knotR (x0 (ix2 b i))))) := by
  obtain ⟨h0, h1, h2⟩ := triple1_apply x0 b o i
  refine (gatherTriple_apply (A := 256) (B := 128) (C := 32) (by decide) (by decide) (by decide) gather_S256x128x32_S2048x256x128x3_S2048x256x128_n_012_n_n_012_3_111_wf x1
    (val_main_v59 (F := Ideal) x0) (ix3 b o i)).trans ?_
  show x1 (ix3 (crow 256 _ (val_main_v59 (F := Ideal) x0 (ix4 b o i (0 : Fin 3))))
    (crow 128 _ (val_main_v59 (F := Ideal) x0 (ix4 b o i (1 : Fin 3))))
    (crow 32 _ (val_main_v59 (F := Ideal) x0 (ix4 b o i (2 : Fin 3))))) = _
  rw [h0, h1, h2, crow_ofNat _ o (by decide), crow_ofNat _ i (by decide)]

/-! ## The result -/

/-- The reference's result is the layer's result. -/
theorem result_eq : val_main_v68 (F := Ideal) x0 x1 = spline x0 x1 := by
  funext j
  obtain ⟨b, o, rfl⟩ : ∃ (b : Fin 2048) (o : Fin 256), j = ix2 b o := ⟨j 0, j 1, eq_ix2 j⟩
  rw [val_main_v68_apply]
  have hz : val_main_cst_17 (F := Ideal) (Shape.Idx.first h_S_) = 0 := Ideal.ofBits_zero_f32
  rw [hz, zero_add]
  unfold spline
  refine Finset.sum_congr rfl fun i _ => ?_
  have hidx : idx_main_v68 (ix2 b o) i = ix3 b o i := by
    funext a; refine Fin.ext ?_
    match a with
    | ⟨0, _⟩ => rfl
    | ⟨1, _⟩ => rfl
    | ⟨2, _⟩ => rfl
  rw [hidx, val_main_v67_apply, val_main_v65_apply, val_main_v66_apply, val_main_v64_apply, val_main_v63_apply,
    val_main_cst_16_apply, gather0_apply, gather1_apply, frac_apply]
  rfl

end Cert.ReferenceIdeal.SplineValue

end
-- ==== Proof.lean ====
/-
  The certificate of a spline layer (a Kolmogorov–Arnold layer with piecewise-linear splines on 32 knots over `[-1, 1]`):
  `out[b, o] = ∑ i, c[o, i, n] · (1 - t) + c[o, i, n + 1] · t`, where sample `x[b, i]` sits at grid position
  `p = (x + 1) · 31/2`, `n = min 30 (max 0 ⌊p⌋)` is the knot on its left and `t = p - n`.

  The reference gathers the two neighbouring coefficients and interpolates. The kernel avoids the gather: it builds, per
  sample, a weighting of the 32 knots that is `1 - t` at `n`, `t` at `n + 1` and zero elsewhere, and contracts it with the
  whole coefficient table over the merged (knot, input) axis in one matrix product. On the extended reals the product's
  zero terms vanish whatever the coefficients are, and the two surviving terms per input are the interpolation; the two
  spellings of the position agree because dividing by `2` is multiplying by `1/2`; and clamping `⌊p⌋` before or after the
  saturating conversion to an integer gives the same knot. No finiteness of the inputs is used.

  Proof/Knot.lean has the position and the knot; Proof/Taps.lean the two sums; Proof/Spec.lean the layer as one function;
  Proof/KernelValue.lean the kernel's result array; Proof/RefValue.lean the reference's result; here they are put together. (Proof/RefRun.lean and Proof/RefRead.lean are the
  reference's run and its stages read at an index.)
-/
import proofs.«139605_j15350213116057_1_alg».proof.Defs
import proofs.«139605_j15350213116057_1_alg».proof.Proof.Gen.Kernel
import proofs.«139605_j15350213116057_1_alg».proof.Proof.Gen.Kernel.Skeleton
import proofs.«139605_j15350213116057_1_alg».proof.Proof.Gen.Kernel.Launch
import proofs.«139605_j15350213116057_1_alg».proof.Proof.Gen.Kernel.Points
import proofs.«139605_j15350213116057_1_alg».proof.Proof.Gen.Kernel.Frame
import proofs.«139605_j15350213116057_1_alg».proof.Proof.Gen.KernelIdeal
import proofs.«139605_j15350213116057_1_alg».proof.Proof.Gen.KernelIdeal.Skeleton
import proofs.«139605_j15350213116057_1_alg».proof.Proof.Gen.KernelIdeal.Launch
import proofs.«139605_j15350213116057_1_alg».proof.Proof.Gen.KernelIdeal.Points
import proofs.«139605_j15350213116057_1_alg».proof.Proof.Gen.KernelIdeal.Frame
import proofs.«139605_j15350213116057_1_alg».proof.Proof.Gen.ReferenceIdeal
import proofs.«139605_j15350213116057_1_alg».proof.Proof.Gen.Pre_finite_inputs
import proofs.«139605_j15350213116057_1_alg».proof.Proof.Gen.KernelIdeal.Value
import proofs.«139605_j15350213116057_1_alg».proof.Proof.KernelValue
import proofs.«139605_j15350213116057_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the two arguments, the idealized kernel and the idealized reference both end with the
    result array at the spline layer's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.SplineValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, Cert.ReferenceIdeal.SplineValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
